-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4096 : Shape := ⟨3, ![32, 128, 4096]⟩
abbrev S32x4096 : Shape := ⟨2, ![32, 4096]⟩
abbrev S32 : Shape := ⟨1, ![32]⟩
abbrev S_ : Shape := ⟨0, ![]⟩

class Facts : Prop where
  bcast_S_S32x128x4096 : S_.BroadcastsInDim S32x128x4096 (![] : Fin 0 → Fin S32x128x4096.rank)
  reducesTo_S32x128x4096_S_d0_1_2 : S32x128x4096.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x128x4096 .f32) (main_arg1 : FVec F S32x128x4096 .f32) (main_arg2 : IVec S32x4096 32) (main_arg3 : IVec S32 32) : IVec S_ 1 :=
  let main_v0 : FVec F S32x128x4096 .f32 := Host.absf main_arg0
  let main_cst : FVec F S_ .f32 := constant S_ .f32 0x7F800000#32
  let main_v1 : FVec F S32x128x4096 .f32 := broadcastInDim S32x128x4096 ![] bcast_S_S32x128x4096 main_cst
  let main_v2 : IVec S32x128x4096 1 := cmpf .olt main_v0 main_v1
  let main_c : IVec S_ 1 := constantI S_ 1 1#1
  let main_v3 : IVec S_ 1 := (fun x v => Host.reduce IntOp.andi x v reducesTo_S32x128x4096_S_d0_1_2 h_S_) main_v2 main_c
  let main_v4 : FVec F S32x128x4096 .f32 := Host.absf main_arg1
  let main_cst_0 : FVec F S_ .f32 := constant S_ .f32 0x7F800000#32
  let main_v5 : FVec F S32x128x4096 .f32 := broadcastInDim S32x128x4096 ![] bcast_S_S32x128x4096 main_cst_0
  let main_v6 : IVec S32x128x4096 1 := cmpf .olt main_v4 main_v5
  let main_c_1 : IVec S_ 1 := constantI S_ 1 1#1
  let main_v7 : IVec S_ 1 := (fun x v => Host.reduce IntOp.andi x v reducesTo_S32x128x4096_S_d0_1_2 h_S_) main_v6 main_c_1
  let main_v8 : IVec S_ 1 := andi main_v3 main_v7
  let main_c_2 : IVec S_ 32 := constantI S_ 32 0#32
  let main_v9 : IVec S32 32 := broadcastInDim S32 ![] bcast_S_S32 main_c_2
  let main_v10 : IVec S32 1 := cmpi .sge main_arg3 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v8 main_v11
  let main_c_4 : IVec S_ 32 := constantI S_ 32 4096#32
  let main_v13 : IVec S32 32 := broadcastInDim S32 ![] bcast_S_S32 main_c_4
  let main_v14 : IVec S32 1 := cmpi .sle main_arg3 main_v13
  let main_c_5 : IVec S_ 1 := constantI S_ 1 1#1
  let main_v15 : IVec S_ 1 := (fun x v => Host.reduce IntOp.andi x v reducesTo_S32_S_d0 h_S_) main_v14 main_c_5
  fn_part1 (F := F) main_v12 main_v15
-- ==== Kernel.lean ====
abbrev S32x128x4096 : Shape := ⟨3, ![32, 128, 4096]⟩
abbrev S32x4096 : Shape := ⟨2, ![32, 4096]⟩
abbrev S32 : Shape := ⟨1, ![32]⟩
abbrev S32x1x4096 : Shape := ⟨3, ![32, 1, 4096]⟩
abbrev S32x1x1 : Shape := ⟨3, ![32, 1, 1]⟩
abbrev S4x128x4096 : Shape := ⟨3, ![4, 128, 4096]⟩
abbrev S4x1x4096 : Shape := ⟨3, ![4, 1, 4096]⟩
abbrev S4x1x1 : Shape := ⟨3, ![4, 1, 1]⟩
abbrev S4x4096 : Shape := ⟨2, ![4, 4096]⟩
abbrev S4x1 : Shape := ⟨2, ![4, 1]⟩
abbrev S4 : Shape := ⟨1, ![4]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S32x128x4096, .f32⟩
  | .hbm, ⟨1, _⟩ => ⟨S32x128x4096, .f32⟩
  | .hbm, ⟨2, _⟩ => ⟨S32x4096, .i32⟩
  | .hbm, ⟨3, _⟩ => ⟨S32, .i32⟩
  | .hbm, ⟨4, _⟩ => ⟨S32x1x4096, .i32⟩
  | .hbm, ⟨5, _⟩ => ⟨S32x1x1, .i32⟩
  | .hbm, ⟨6, _⟩ => ⟨S32x1x1, .f32⟩
  | .hbm, ⟨7, _⟩ => ⟨S_, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x128x4096, .f32⟩
  | .local _ .vmem, ⟨1, _⟩ => ⟨S4x128x4096, .f32⟩
  | .local _ .vmem, ⟨2, _⟩ => ⟨S4x128x4096, .f32⟩
  | .local _ .vmem, ⟨3, _⟩ => ⟨S4x128x4096, .f32⟩
  | .local _ .vmem, ⟨4, _⟩ => ⟨S4x1x4096, .i32⟩
  | .local _ .vmem, ⟨5, _⟩ => ⟨S4x1x4096, .i32⟩
  | .local _ .vmem, ⟨6, _⟩ => ⟨S4x1x1, .i32⟩
  | .local _ .vmem, ⟨7, _⟩ => ⟨S4x1x1, .i32⟩
  | .local _ .vmem, ⟨8, _⟩ => ⟨S4x1x1, .f32⟩
  | .local _ .vmem, ⟨9, _⟩ => ⟨S4x1x1, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S32x4096_S32x1x4096_0_2 : S32x4096.BroadcastsInDim S32x1x4096 (![0, 2] : Fin 2 → Fin S32x1x4096.rank)
  bcast_S32_S32x1x1_0 : S32.BroadcastsInDim S32x1x1 (![0] : Fin 1 → Fin S32x1x1.rank)
  inb_S4x128x4096_S4x128x4096_0_0_0 : ∀ a, (![0, 0, 0] : Fin 3 → Nat) a + S4x128x4096.size a ≤ S4x128x4096.size a
  h_S4x128x4096 : 0 < S4x128x4096.numel
  reduces_S4x128x4096_S4x4096 : S4x128x4096.Reduces [1] S4x4096
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  shapeCasts_S4x1x1_S4x1 : S4x1x1.ShapeCasts S4x1
  broadcasts_S4x1_S4x4096 : S4x1.Broadcasts S4x4096
  inb_S4x1x4096_S4x1x4096_0_0_0 : ∀ a, (![0, 0, 0] : Fin 3 → Nat) a + S4x1x4096.size a ≤ S4x1x4096.size a
  h_S4x1x4096 : 0 < S4x1x4096.numel
  shapeCasts_S4x1x4096_S4x1x4096 : S4x1x4096.ShapeCasts S4x1x4096
  shapeCasts_S4x1x4096_S4x4096 : S4x1x4096.ShapeCasts S4x4096
  iota_S4x4096_d1_w32 : S4x4096.Iotas .tc 32 [1]
  reduces_S4x4096_S4 : S4x4096.Reduces [1] S4
  shapeCasts_S4_S4x1x1 : S4.ShapeCasts S4x1x1
  reducesTo_S32x1x1_S_d0_1_2 : S32x1x1.ReducesTo [0, 1, 2] S_
  h_S_ : 0 < S_.numel
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S32x128x4096.size a
  hwx0_0 : ∀ i : grid0.Coords, EltTy.bits .f32 = 32 ∨ (Rect.block (s := S32x128x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x4096.size a ≤ S32x128x4096.size a
  hwx0_1 : ∀ i : grid0.Coords, EltTy.bits .f32 = 32 ∨ (Rect.block (s := S32x128x4096) S4x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x4096.size a ≤ S32x1x4096.size a
  hwx0_2 : ∀ i : grid0.Coords, EltTy.bits .i32 = 32 ∨ (Rect.block (s := S32x1x4096) S4x1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S32x1x1.size a
  hwx0_3 : ∀ i : grid0.Coords, EltTy.bits .i32 = 32 ∨ (Rect.block (s := S32x1x1) S4x1x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1.size a ≤ S32x1x1.size a
  hwx0_4 : ∀ i : grid0.Coords, EltTy.bits .f32 = 32 ∨ (Rect.block (s := S32x1x1) S4x1x1.size (cc0_transform_4 i) (hinb0_4 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x4096 : Shape := ⟨3, ![32, 128, 4096]⟩
abbrev S32x4096 : Shape := ⟨2, ![32, 4096]⟩
abbrev S32 : Shape := ⟨1, ![32]⟩
abbrev S_ : Shape := ⟨0, ![]⟩
abbrev S32x1 : Shape := ⟨2, ![32, 1]⟩
abbrev S4096 : Shape := ⟨1, ![4096]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S32x128x4096, .f32⟩
  | .hbm, ⟨2, _⟩ => ⟨S32x4096, .i32⟩
  | .hbm, ⟨3, _⟩ => ⟨S32, .i32⟩
  | .hbm, ⟨4, _⟩ => ⟨S32x128x4096, .f32⟩
  | .hbm, ⟨5, _⟩ => ⟨S32x128x4096, .f32⟩
  | .hbm, ⟨6, _⟩ => ⟨S_, .f32⟩
  | .hbm, ⟨7, _⟩ => ⟨S32x4096, .f32⟩
  | .hbm, ⟨8, _⟩ => ⟨S32x4096, .f32⟩
  | .hbm, ⟨9, _⟩ => ⟨S32x1, .i32⟩
  | .hbm, ⟨10, _⟩ => ⟨S32x1, .f32⟩
  | .hbm, ⟨11, _⟩ => ⟨S32x4096, .f32⟩
  | .hbm, ⟨12, _⟩ => ⟨S32x4096, .f32⟩
  | .hbm, ⟨13, _⟩ => ⟨S32x4096, .f32⟩
  | .hbm, ⟨14, _⟩ => ⟨S_, .f32⟩
  | .hbm, ⟨15, _⟩ => ⟨S32x4096, .f32⟩
  | .hbm, ⟨16, _⟩ => ⟨S32x4096, .f32⟩
  | .hbm, ⟨17, _⟩ => ⟨S_, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S_, .i32⟩
  | .hbm, ⟨22, _⟩ => ⟨S32x4096, .i32⟩
  | .hbm, ⟨23, _⟩ => ⟨S32x4096, .i1⟩
  | .hbm, ⟨24, _⟩ => ⟨S32x4096, .f32⟩
  | .hbm, ⟨25, _⟩ => ⟨S4096, .i32⟩
  | .hbm, ⟨26, _⟩ => ⟨S1x4096, .i32⟩
  | .hbm, ⟨27, _⟩ => ⟨S32x1, .i32⟩
  | .hbm, ⟨28, _⟩ => ⟨S32x4096, .i32⟩
  | .hbm, ⟨29, _⟩ => ⟨S32x4096, .i32⟩
  | .hbm, ⟨30, _⟩ => ⟨S32x4096, .i1⟩
  | .hbm, ⟨31, _⟩ => ⟨S32x4096, .f32⟩
  | .hbm, ⟨32, _⟩ => ⟨S32x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S32x128x4096_S32x4096_d1 : S32x128x4096.ReducesTo [1] S32x4096
  h_S_ : 0 < S_.numel
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  bcast_S_S32x4096 : S_.BroadcastsInDim S32x4096 (![] : Fin 0 → Fin S32x4096.rank)
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  reducesTo_S32x4096_S_d0_1 : S32x4096.ReducesTo [0, 1] S_

variable [Facts₀]

class Facts : Prop extends Facts₀ where

variable [Facts]
-- ==== Proof.Spec.lean ====
/-
  The quantity both programs compute, as functions of the four argument arrays over the extended reals.

  For a batch row `b` and a frame `t` the squared distance is `∑ d, (pred1 b d t - pred2 b d t)²`; its square root is
  scaled by the row's frame count `n b` (read as a signed integer); the per-frame loss is the square of that scaled
  distance where the label is nonzero and `max (margin - scaled) 0` squared where it is zero. A frame is valid when its
  position is below the row's frame count (signed compare on the words). The loss is the sum of the valid frames'
  losses over the sum of the frame counts; the reference divides instead by the number of valid frames.
-/
import Idealize.ShloMosaic.PureOps.Ideal
import Idealize.ShloMosaic.Lib.ValueIdx

noncomputable section

namespace Cert.Spec

open Idealize.ShloMosaic Idealize.ShloMosaic.ValueIdx

/-- The three argument array types: predictions [32, 128, 4096], labels [32, 4096], frame counts [32]. -/
abbrev Pred := (⟨3, ![32, 128, 4096]⟩ : Shape).Idx → EReal
abbrev Lbl := (⟨2, ![32, 4096]⟩ : Shape).Idx → BitVec 32
abbrev Cnt := (⟨1, ![32]⟩ : Shape).Idx → BitVec 32

/-- The margin: the binary value of the f32 word both programs carry. -/
def margin : EReal := Ideal.ofBits .f32 0x3F7D70A4#32

/-- The squared L2 distance of frame `t` of row `b` over the 128 features. -/
def sqDist (a0 a1 : Pred) (b : Fin 32) (t : Fin 4096) : EReal :=
  ∑ d : Fin 128, (a0 (ix3 b d t) - a1 (ix3 b d t)) * (a0 (ix3 b d t) - a1 (ix3 b d t))

/-- A row's frame count as an extended real (the word read signed). -/
def cnt (n : Cnt) (b : Fin 32) : EReal := (((n (ix1 b)).toInt : ℝ) : EReal)

/-- The distance scaled by the row's frame count. -/
def scaled (a0 a1 : Pred) (n : Cnt) (b : Fin 32) (t : Fin 4096) : EReal :=
  Ideal.sqrt (sqDist a0 a1 b t) * cnt n b

/-- The per-frame loss: the scaled distance squared under a nonzero label, the clamped margin gap squared under a zero one. -/
def perFrame (a0 a1 : Pred) (l : Lbl) (n : Cnt) (b : Fin 32) (t : Fin 4096) : EReal :=
  Scalar.select (IntOp.cmpi .ne (l (ix2 b t)) 0#32)
    (scaled a0 a1 n b t * scaled a0 a1 n b t)
    (max (margin - scaled a0 a1 n b t) 0 * max (margin - scaled a0 a1 n b t) 0)

/-- The validity bit of frame `t` of row `b`: its position is below the frame count, compared signed. -/
def valid (n : Cnt) (b : Fin 32) (t : Fin 4096) : BitVec 1 :=
  IntOp.cmpi .slt (BitVec.ofNat 32 t.val) (n (ix1 b))

/-- A row's loss: the valid frames' losses summed. -/
def rowLoss (a0 a1 : Pred) (l : Lbl) (n : Cnt) (b : Fin 32) : EReal :=
  ∑ t : Fin 4096, Scalar.select (valid n b t) (perFrame a0 a1 l n b t) 0

/-- The numerator: all rows' losses. -/
def num (a0 a1 : Pred) (l : Lbl) (n : Cnt) : EReal := ∑ b : Fin 32, rowLoss a0 a1 l n b

/-- The kernel's denominator: the frame counts summed. -/
def denCounts (n : Cnt) : EReal := ∑ b : Fin 32, cnt n b

/-- The reference's numerator: every frame's loss times its validity bit as a number. -/
def numMasked (a0 a1 : Pred) (l : Lbl) (n : Cnt) : EReal :=
  ∑ j : (⟨2, ![32, 4096]⟩ : Shape).Idx, perFrame a0 a1 l n (j 0) (j 1) * (((valid n (j 0) (j 1)).toNat : ℝ) : EReal)

/-- The reference's denominator: the number of valid frames. -/
def denMask (n : Cnt) : EReal :=
  ∑ j : (⟨2, ![32, 4096]⟩ : Shape).Idx, (((valid n (j 0) (j 1)).toNat : ℝ) : EReal)

/-- Every row's frame count lies in [0, 4096]: the domain on which the two denominators agree. -/
def InRange (n : Cnt) : Prop := ∀ b : Fin 32, 0 ≤ (n (ix1 b)).toInt ∧ (n (ix1 b)).toInt ≤ 4096

end Cert.Spec

end
-- ==== Proof.Payload.lean ====
/-
  The kernel body's stored value at row `p` of its [4, 1, 1] block is that row's loss: the sum over the 4096 frames of
  the per-frame loss where the frame's position is below the row's count and zero elsewhere, the per-frame loss built
  from the sum over the 128 features of the squared differences. Stated over any blocks whose entries are the
  argument arrays' at row `b`.
-/
import proofs.«426826_j75694503625206_3_alg».proof.Proof.Gen.KernelIdeal.Skeleton
import proofs.«426826_j75694503625206_3_alg».proof.Proof.Spec
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

variable {α : Type}

/-- A length-4 vector viewed [4, 1, 1] reads row `p` at (p, 0, 0). -/
theorem cast_4_411 (v : S4.Idx → α) (h : S4.ShapeCasts S4x1x1) (p : Fin 4) :
    shapeCast S4x1x1 v h (ix3 p 0 0) = v (ix1 p) :=
  shapeCast_apply v h (ix3 p 0 0) (ix1 p) (by rw [Shape.rowMajor_val_one, Shape.rowMajor_val_three]; simp)

/-- A [4, 1, 1] block viewed [4, 1] reads (p, 0, 0) at (p, 0). -/
theorem cast_411_41 (v : S4x1x1.Idx → α) (h1 : S4x1x1.ShapeCasts S4x1x1) (h2 : S4x1x1.ShapeCasts S4x1) (p : Fin 4) :
    shapeCast S4x1 (shapeCast S4x1x1 v h1) h2 (ix2 p 0) = v (ix3 p 0 0) := by
  rw [shapeCast_self]
  exact shapeCast_apply v h2 (ix2 p 0) (ix3 p 0 0) (by rw [Shape.rowMajor_val_three, Shape.rowMajor_val_two]; simp)

/-- A [4, 1, 4096] block viewed [4, 4096] reads (p, 0, t) at (p, t). -/
theorem cast_41n_4n (v : S4x1x4096.Idx → α) (h1 : S4x1x4096.ShapeCasts S4x1x4096) (h2 : S4x1x4096.ShapeCasts S4x4096)
    (p : Fin 4) (t : Fin 4096) :
    shapeCast S4x4096 (shapeCast S4x1x4096 v h1) h2 (ix2 p t) = v (ix3 p 0 t) := by
  rw [shapeCast_self]
  exact shapeCast_apply v h2 (ix2 p t) (ix3 p 0 t) (by rw [Shape.rowMajor_val_three, Shape.rowMajor_val_two]; simp)

/-- A [4, 1] column laid along the frames reads its row. -/
theorem bcast_41_4n (v : S4x1.Idx → α) (h : S4x1.Broadcasts S4x4096) (p : Fin 4) (t : Fin 4096) :
    broadcastTo S4x4096 v h (ix2 p t) = v (ix2 p 0) :=
  broadcastTo_apply v h (ix2 p t) (ix2 p 0) (fun a => match a with
    | ⟨0, _⟩ => by show p.val = if (4 : Nat) = 1 then 0 else p.val; rw [if_neg (by decide)]
    | ⟨1, _⟩ => by show 0 = if (1 : Nat) = 1 then 0 else t.val; rw [if_pos rfl])

/-- The frame axis's counter at (p, t) is `t`. -/
theorem iota_at (h : S4x4096.Iotas .tc 32 [1]) (p : Fin 4) (t : Fin 4096) :
    iota .tc S4x4096 32 [1] h (ix2 p t) = BitVec.ofNat 32 t.val :=
  iota_single_apply .tc S4x4096 32 1 h (ix2 p t)

/-- The feature axis reduced: at (p, t) the sum over the features `d` of the operand at (p, d, t). -/
theorem sum_features (v : FVec Ideal S4x128x4096 .f32) (h : S4x128x4096.Reduces [1] S4x4096) (hφ : FKind.Formats .f32)
    (hacc : (0x00000000#32 : BitVec 32) = FKind.add.neutral .f32 hφ) (p : Fin 4) (t : Fin 4096) :
    multiReduction .add [1] S4x4096 v 0x00000000#32 h hφ hacc (ix2 p t) = ∑ d : Fin 128, v (ix3 p d t) := by
  rw [Ideal.multiReduction_add_single]
  refine Finset.sum_congr rfl fun d _ => congrArg v (funext fun a => Fin.ext ?_)
  match a with | ⟨0, _⟩ => rfl | ⟨1, _⟩ => rfl | ⟨2, _⟩ => rfl

/-- The frame axis reduced: at row `p` the sum over the frames `t` of the operand at (p, t). -/
theorem sum_frames (v : FVec Ideal S4x4096 .f32) (h : S4x4096.Reduces [1] S4) (hφ : FKind.Formats .f32)
    (hacc : (0x00000000#32 : BitVec 32) = FKind.add.neutral .f32 hφ) (p : Fin 4) :
    multiReduction .add [1] S4 v 0x00000000#32 h hφ hacc (ix1 p) = ∑ t : Fin 4096, v (ix2 p t) := by
  rw [Ideal.multiReduction_add_single]
  refine Finset.sum_congr rfl fun t _ => congrArg v (funext fun a => Fin.ext ?_)
  match a with | ⟨0, _⟩ => rfl | ⟨1, _⟩ => rfl

/-- THE STORED VALUE at row `p`: the loss of the array row `b` the blocks' row `p` holds. -/
theorem pay_at (a0 a1 : Spec.Pred) (l : Spec.Lbl) (n : Spec.Cnt)
    (x0 x1 : Vec Ideal S4x128x4096 .f32) (x3 : Vec Ideal S4x1x1 .i32) (x2 : Vec Ideal S4x1x4096 .i32) (p : Fin 4) (b : Fin 32)
    (h0 : ∀ (d : Fin 128) (t : Fin 4096), x0 (ix3 p d t) = a0 (ix3 b d t))
    (h1 : ∀ (d : Fin 128) (t : Fin 4096), x1 (ix3 p d t) = a1 (ix3 b d t))
    (h2 : ∀ t : Fin 4096, x2 (ix3 p 0 t) = l (ix2 b t))
    (h3 : x3 (ix3 p 0 0) = n (ix1 b)) :
    k0_pay1 (F := Ideal) x0 x1 x3 x2 (ix3 p 0 0) = Spec.rowLoss a0 a1 l n b := by
  unfold k0_pay1
  rw [cast_4_411]
  refine (sum_frames _ _ _ _ p).trans ?_
  unfold Spec.rowLoss
  refine Finset.sum_congr rfl fun t _ => ?_
  simp only [select_apply, cmpi, mulf_apply, subf_apply, maximumf_apply, broadcast_apply, sqrt, sitofp_apply,
    bcast_41_4n, cast_411_41, cast_41n_4n, h2, h3]
  rw [iota_at]
  rw (config := { transparency := .default }) [sum_features]
  simp only [mulf_apply, subf_apply, h0, h1, Ideal.sqrt_def, Ideal.ofBits_def, Ideal.ofBits_zero_f32]
  rfl

end Cert.KernelValue

end
-- ==== Proof.KernelArray.lean ====
/-
  The kernel's [32, 1, 1] result array after the run holds each row's loss. A grid point `t` stages rows
  `4t … 4t+3` of every operand (the label and count operands through their singleton-axis views), the body's stored
  block at row `p` is the loss of array row `4t + p`, and the eight points' blocks tile the 32 rows.
-/
import proofs.«426826_j75694503625206_3_alg».proof.Proof.Gen.KernelIdeal.Frame
import proofs.«426826_j75694503625206_3_alg».proof.Proof.Payload
import Idealize.ShloMosaic.Lib.StableHlo.Run
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The argument arrays on core `c`. -/
abbrev pred1 (c : Dev nD) : Spec.Pred := m ((c : Thread nD τ).loc main_arg0)
abbrev pred2 (c : Dev nD) : Spec.Pred := m ((c : Thread nD τ).loc main_arg1)
abbrev labels (c : Dev nD) : Spec.Lbl := m ((c : Thread nD τ).loc main_arg2)
abbrev counts (c : Dev nD) : Spec.Cnt := m ((c : Thread nD τ).loc main_arg3)

/-- The rows' losses laid out as the [32, 1, 1] array. -/
def rowArr (c : Dev nD) : S32x1x1.Idx → EReal :=
  fun i => Spec.rowLoss (pred1 m c) (pred2 m c) (labels m c) (counts m c) (i 0)

theorem zero3 : (![0, 0, 0] : Fin 3 → Nat) = fun _ => 0 := funext fun a => by fin_cases a <;> rfl

/-- Every window's block index at point `t` is (t, 0, 0). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The labels' [32, 1, 4096] view as the region finds it. -/
theorem V_labels (c : Dev nD) (h : S32x4096.BroadcastsInDim S32x1x4096 (![0, 2] : Fin 2 → Fin S32x1x4096.rank)) :
    (V m c main_v0 : S32x1x4096.Idx → BitVec 32) = broadcastInDim S32x1x4096 ![0, 2] h (labels m c) := by
  show StableHlo.after hostOps0 (fun b => m (c, b)) (Proc.devRef .tc main_v0) = _
  after_results

/-- The counts' [32, 1, 1] view as the region finds it. -/
theorem V_counts (c : Dev nD) (h : S32.BroadcastsInDim S32x1x1 (![0] : Fin 1 → Fin S32x1x1.rank)) :
    (V m c main_v1 : S32x1x1.Idx → BitVec 32) = broadcastInDim S32x1x1 ![0] h (counts m c) := by
  show StableHlo.after hostOps0 (fun b => m (c, b)) (Proc.devRef .tc main_v1) = _
  after_results

/-- Row `p` of the first prediction block at point `t` is array row `4t + p`. -/
theorem blk_pred1 (c : Dev nD) (t : Fin cfg0.N) (p : Fin 4) (b : Fin 32) (hb : b.val = 4 * t.val + p.val) (d : Fin 128) (u : Fin 4096) :
    iblk m c 0 t (ix3 p d u) = pred1 m c (ix3 b d u) := by
  show V m c main_arg0 (((cfg0.win 0).blk t).view.emb (ix3 p d u)) = _
  rw [V_main_arg0]
  obtain ⟨⟨e0, e1, e2⟩, -⟩ := block_index t
  refine congrArg (m ((c : Thread nD τ).loc main_arg0)) (funext fun a => Fin.ext ?_)
  match a with
  | ⟨0, _⟩ => show win0_0.index t (0 : Fin 3) * 4 + 1 * p.val = b.val; omega
  | ⟨1, _⟩ => show win0_0.index t (1 : Fin 3) * 128 + 1 * d.val = d.val; omega
  | ⟨2, _⟩ => show win0_0.index t (2 : Fin 3) * 4096 + 1 * u.val = u.val; omega

/-- Row `p` of the second prediction block at point `t` is array row `4t + p`. -/
theorem blk_pred2 (c : Dev nD) (t : Fin cfg0.N) (p : Fin 4) (b : Fin 32) (hb : b.val = 4 * t.val + p.val) (d : Fin 128) (u : Fin 4096) :
    iblk m c 1 t (ix3 p d u) = pred2 m c (ix3 b d u) := by
  show V m c main_arg1 (((cfg0.win 1).blk t).view.emb (ix3 p d u)) = _
  rw [V_main_arg1]
  obtain ⟨-, ⟨e0, e1, e2⟩, -⟩ := block_index t
  refine congrArg (m ((c : Thread nD τ).loc main_arg1)) (funext fun a => Fin.ext ?_)
  match a with
  | ⟨0, _⟩ => show win0_1.index t (0 : Fin 3) * 4 + 1 * p.val = b.val; omega
  | ⟨1, _⟩ => show win0_1.index t (1 : Fin 3) * 128 + 1 * d.val = d.val; omega
  | ⟨2, _⟩ => show win0_1.index t (2 : Fin 3) * 4096 + 1 * u.val = u.val; omega

/-- Row `p` of the label block at point `t` is the labels' row `4t + p`. -/
theorem blk_labels (c : Dev nD) (t : Fin cfg0.N) (p : Fin 4) (b : Fin 32) (hb : b.val = 4 * t.val + p.val) (u : Fin 4096) :
    iblk m c 2 t (ix3 p 0 u) = labels m c (ix2 b u) := by
  show V m c main_v0 (((cfg0.win 2).blk t).view.emb (ix3 p 0 u)) = _
  rw [V_labels m c Gen.bcast_S32x4096_S32x1x4096_0_2]
  obtain ⟨-, -, ⟨e0, e1, e2⟩, -⟩ := block_index t
  refine broadcastInDim_apply _ _ (labels m c) _ (ix2 b u) (fun a => ?_)
  match a with
  | ⟨0, _⟩ =>
    show b.val = if (32 : Nat) = 1 then 0 else win0_2.index t (0 : Fin 3) * 4 + 1 * p.val
    rw [if_neg (by decide)]; omega
  | ⟨1, _⟩ =>
    show u.val = if (4096 : Nat) = 1 then 0 else win0_2.index t (2 : Fin 3) * 4096 + 1 * u.val
    rw [if_neg (by decide)]; omega

/-- Row `p` of the count block at point `t` is the count of row `4t + p`. -/
theorem blk_counts (c : Dev nD) (t : Fin cfg0.N) (p : Fin 4) (b : Fin 32) (hb : b.val = 4 * t.val + p.val) :
    iblk m c 3 t (ix3 p 0 0) = counts m c (ix1 b) := by
  show V m c main_v1 (((cfg0.win 3).blk t).view.emb (ix3 p 0 0)) = _
  rw [V_counts m c Gen.bcast_S32_S32x1x1_0]
  obtain ⟨-, -, -, ⟨e0, e1, e2⟩, -⟩ := block_index t
  refine broadcastInDim_apply _ _ (counts m c) _ (ix1 b) (fun a => ?_)
  match a with
  | ⟨0, _⟩ =>
    show b.val = if (32 : Nat) = 1 then 0 else win0_3.index t (0 : Fin 3) * 4 + 1 * p.val
    rw [if_neg (by decide)]; omega

/-- WHAT POINT `t` WRITES BACK is block `t` of the rows' losses. -/
theorem flushed_eq (c : Dev nD) (t : Fin cfg0.N) :
    (dats m 0 c).flushed 4 t = ((cfg0.win 4).blk t).view.read (Elt Ideal) (rowArr m c) := by
  show (cfg0.win 4).cut (grid0.coords t) ((dats m 0 c).after 4 t) = _
  rw [after0_4]
  unfold out0_4
  rw [View.canon_unit_zero zero3]
  simp only [View.ld_unit_zero (S := S4x128x4096) zero3, View.ld_unit_zero (S := S4x1x1) zero3,
    View.ld_unit_zero (S := S4x1x4096) zero3]
  funext j
  have ht : t.val < 8 := lt_of_lt_of_eq t.isLt N_0
  have hp : (j 0).val < 4 := (j 0).isLt
  have h1 : (j 1).val < 1 := (j 1).isLt
  have h2 : (j 2).val < 1 := (j 2).isLt
  have hj : j = ix3 (⟨(j 0).val, hp⟩ : Fin 4) 0 0 := funext fun a => Fin.ext (by
    match a with
    | ⟨0, _⟩ => rfl
    | ⟨1, _⟩ => show (j 1).val = 0; omega
    | ⟨2, _⟩ => show (j 2).val = 0; omega)
  obtain ⟨-, -, -, -, ⟨e0, e1, e2⟩⟩ := block_index t
  have hb : 4 * t.val + (j 0).val < 32 := by omega
  show k0_pay1 (F := Ideal) (iblk m c 0 t) (iblk m c 1 t) (iblk m c 3 t) (iblk m c 2 t) j
    = rowArr m c (((cfg0.win 4).blk t).view.emb j)
  refine (congrArg (k0_pay1 (F := Ideal) (iblk m c 0 t) (iblk m c 1 t) (iblk m c 3 t) (iblk m c 2 t)) hj).trans ?_
  refine (pay_at (pred1 m c) (pred2 m c) (labels m c) (counts m c) (iblk m c 0 t) (iblk m c 1 t) (iblk m c 3 t) (iblk m c 2 t)
    ⟨(j 0).val, hp⟩ ⟨4 * t.val + (j 0).val, hb⟩
    (fun d u => blk_pred1 m c t _ _ rfl d u) (fun d u => blk_pred2 m c t _ _ rfl d u)
    (fun u => blk_labels m c t _ _ rfl u) (blk_counts m c t _ _ rfl)).trans ?_
  unfold rowArr
  refine congrArg (Spec.rowLoss (pred1 m c) (pred2 m c) (labels m c) (counts m c)) (Fin.ext ?_)
  show 4 * t.val + (j 0).val = win0_4.index t (0 : Fin 3) * 4 + 1 * (j 0).val
  omega

/-- An index of the array is in point `t`'s block iff each coordinate is in the block's range on its axis. -/
theorem mem_blk (t : Fin cfg0.N) (i : S32x1x1.Idx) :
    i ∈ ((cfg0.win 4).blk t).view.set ↔ ∀ a : Fin 3, win0_4.index t a * S4x1x1.size a ≤ (i a).val
      ∧ (i a).val < win0_4.index t a * S4x1x1.size a + S4x1x1.size a := by
  show i ∈ ((View.whole main_v2).slice (win0_4.rect t)).set ↔ _
  rw [View.set_slice_whole, Rect.mem_set_unit]
  exact Iff.rfl

/-- Row `r` lies in the block of point `r / 4`: the eight blocks tile the array. -/
theorem cover (i : S32x1x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  have hN : (i 0).val / 4 < cfg0.N := lt_of_lt_of_eq (by omega : (i 0).val / 4 < 8) N_0.symm
  refine ⟨⟨(i 0).val / 4, hN⟩, flush0_4 _, ?_⟩
  rw [mem_blk]
  obtain ⟨-, -, -, -, ⟨e0, e1, e2⟩⟩ := block_index ⟨(i 0).val / 4, hN⟩
  have e0' : win0_4.index ⟨(i 0).val / 4, hN⟩ (0 : Fin 3) = (i 0).val / 4 := e0
  intro a
  match a with
  | ⟨0, _⟩ =>
    show win0_4.index ⟨(i 0).val / 4, hN⟩ (0 : Fin 3) * 4 ≤ (i 0).val
      ∧ (i 0).val < win0_4.index ⟨(i 0).val / 4, hN⟩ (0 : Fin 3) * 4 + 4
    omega
  | ⟨1, _⟩ =>
    show win0_4.index ⟨(i 0).val / 4, hN⟩ (1 : Fin 3) * 1 ≤ (i 1).val
      ∧ (i 1).val < win0_4.index ⟨(i 0).val / 4, hN⟩ (1 : Fin 3) * 1 + 1
    omega
  | ⟨2, _⟩ =>
    show win0_4.index ⟨(i 0).val / 4, hN⟩ (2 : Fin 3) * 1 ≤ (i 2).val
      ∧ (i 2).val < win0_4.index ⟨(i 0).val / 4, hN⟩ (2 : Fin 3) * 1 + 1
    omega

/-- THE ARRAY after the run: every row's loss. -/
theorem final (c : Dev nD) : (dats m 0 c).arrAt 4 cfg0.N = rowArr m c :=
  (dats m 0 c).arrAt_eq_of_cover 4 (rowArr m c) (fun t _ => flushed_eq m c t) cover

end Cert.KernelValue

end
-- ==== Proof.Reindex.lean ====
/-
  Sums over index sets with unit axes, read as sums over the one free coordinate.

  An index of a [32, 1, 1] array is determined by its first coordinate, the other two ranging over a one-element set; an
  index of a [32] array is its one coordinate. Each index set is therefore in bijection with the 32 row positions, and a
  sum over it is the sum over the rows.
-/
import proofs.«426826_j75694503625206_3_alg».proof.Proof.Spec
import Mathlib.Algebra.BigOperators.Group.Finset.Defs
import Mathlib.Logic.Equiv.Defs

noncomputable section

namespace Cert.Spec

open Idealize.ShloMosaic Idealize.ShloMosaic.ValueIdx

/-- An index of a [32, 1, 1] array is its first coordinate. -/
def rowEquiv3 : (⟨3, ![32, 1, 1]⟩ : Shape).Idx ≃ Fin 32 where
  toFun i := i 0
  invFun b := ix3 b 0 0
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- An index of a [32] array is its coordinate. -/
def rowEquiv1 : (⟨1, ![32]⟩ : Shape).Idx ≃ Fin 32 where
  toFun i := i 0
  invFun b := ix1 b
  left_inv i := (eq_ix1 i).symm
  right_inv _ := rfl

/-- A sum over the [32, 1, 1] index set of a function of the first coordinate is the sum over the rows. -/
theorem sum_rows3 (f : Fin 32 → EReal) : ∑ i : (⟨3, ![32, 1, 1]⟩ : Shape).Idx, f (i 0) = ∑ b : Fin 32, f b :=
  Fintype.sum_equiv rowEquiv3 (fun i => f (i 0)) f (fun _ => rfl)

/-- A sum over the [32] index set is the sum over the rows of the values at each row's index. -/
theorem sum_rows1 (g : (⟨1, ![32]⟩ : Shape).Idx → EReal) :
    ∑ i : (⟨1, ![32]⟩ : Shape).Idx, g i = ∑ b : Fin 32, g (ix1 b) :=
  (Fintype.sum_equiv rowEquiv1.symm (fun b => g (ix1 b)) g (fun _ => rfl)).symm

end Cert.Spec

end
-- ==== Proof.KernelRun.lean ====
/-
  The kernel program's run, read: after the region the host sums the [32, 1, 1] array of row losses, converts and sums
  the frame counts, and divides; so the result buffer ends at the numerator over the sum of the counts, and the four
  argument arrays end as they began.
-/
import proofs.«426826_j75694503625206_3_alg».proof.Proof.KernelArray
import proofs.«426826_j75694503625206_3_alg».proof.Proof.Reindex
import Idealize.ShloMosaic.PureOps.Ideal.Laws

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The kernel's result as a function of the argument arrays on core `c`. -/
def result (c : Dev nD) : S_.Idx → EReal :=
  fun _ => Ideal.div (Spec.num (pred1 m c) (pred2 m c) (labels m c) (counts m c)) (Spec.denCounts (counts m c))

/-- The result buffer after the host operations that follow the region. -/
theorem tail_result (c : Dev nD) :
    Pipeline.afterTail₀ cfgs (dats m) 0 (V0 m) [hostOps1] c main_v6 = result m c := by
  unfold Pipeline.afterTail₀
  show StableHlo.after hostOps1 _ (Proc.devRef .tc main_v6) = _
  after_results
  have hA : Pipeline.withArrays (cfgs 0).spec c (V0 m c) (fun w => (dats m 0 c).arrAt w (cfgs 0).N)
      (Proc.devRef .tc main_v2) = rowArr m c :=
    (Pipeline.withArrays_arr spec0 launch0.win.arr_inj c _ _ 4).trans (final m c)
  have hN : Pipeline.withArrays (cfgs 0).spec c (V0 m c) (fun w => (dats m 0 c).arrAt w (cfgs 0).N)
      (Proc.devRef .tc main_arg3) = counts m c :=
    (Pipeline.withArrays_of_ne _ c (V0 m c) _ main_arg3
      (by exact (by decide : ∀ w, Pipeline.arrRef spec0 w ≠ main_arg3))).trans (V_main_arg3 m c)
  rw [hA, hN]
  funext i
  simp only [Host.divf, Host.reduceAdd, Ideal.hostReduceAdd_def, Ideal.hostDivf_def]
  rw [Ideal.hostReduceAdd_total _ (fun b => b.elim0), Ideal.hostReduceAdd_total _ (fun b => b.elim0)]
  simp only [constant_apply, Ideal.ofBits_zero_f32, zero_add]
  unfold result Spec.num Spec.denCounts
  refine congrArg₂ Ideal.div (Spec.sum_rows3 _) ((Spec.sum_rows1 _).trans rfl)

/-- THE RUN, READ: every weakly fair execution ends with the result buffer at the numerator over the sum of the frame
    counts and the argument arrays unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelValue

end
-- ==== Proof.RefValue.lean ====
/-
  The reference's result, read one operation at a time, is the masked numerator over the mask's count: at a pair
  (row, frame) the selected branch is the per-frame loss and the converted compare is the validity bit as a number.
-/
import proofs.«426826_j75694503625206_3_alg».proof.Proof.Gen.ReferenceIdeal.Read
import proofs.«426826_j75694503625206_3_alg».proof.Proof.Spec

noncomputable section

namespace Cert.RefValue

open Cert.ReferenceIdeal Cert.ReferenceIdeal.Gen Cert.ReferenceIdeal.Read Idealize.ShloMosaic Idealize.ShloMosaic.ValueIdx

/-- The feature index the reference's reduction visits at (row, frame) is (row, feature, frame). -/
theorem idx_feature (b : Fin 32) (t : Fin 4096) (k : Fin 128) : idx_main_v2 (ix2 b t) k = ix3 b k t :=
  funext fun a => Fin.ext (by match a with | ⟨0, _⟩ => rfl | ⟨1, _⟩ => rfl | ⟨2, _⟩ => rfl)

/-- The row a frame's scale is read at. -/
theorem idx_row (b : Fin 32) (t : Fin 4096) : idx_main_v4 (idx_main_v6 (ix2 b t)) = ix1 b :=
  funext fun a => Fin.ext (by match a with | ⟨0, _⟩ => rfl)

/-- The row a frame's count is compared against. -/
theorem idx_row' (b : Fin 32) (t : Fin 4096) : idx_main_v19 (idx_main_v21 (ix2 b t)) = ix1 b :=
  funext fun a => Fin.ext (by match a with | ⟨0, _⟩ => rfl)

/-- The selected branch at (row, frame) is the per-frame loss. -/
theorem loss_at (x0 x1 : Spec.Pred) (x2 : Spec.Lbl) (x3 : Spec.Cnt) (b : Fin 32) (t : Fin 4096) :
    val_main_v16 (F := Ideal) x0 x1 x2 x3 (ix2 b t) = Spec.perFrame x0 x1 x2 x3 b t := by
  rw [val_main_v16_apply, val_main_v15_apply, val_main_v14_apply, val_main_c_apply, val_main_v8_apply, val_main_v13_apply,
    val_main_v12_apply, val_main_v10_apply, val_main_v9_apply, val_main_cst_0_apply, val_main_v11_apply, val_main_cst_1_apply,
    val_main_v7_apply, val_main_v3_apply, val_main_v2_apply, val_main_cst_apply, val_main_v6_apply, val_main_v5_apply, val_main_v4_apply]
  simp only [val_main_v1_apply, val_main_v0_apply, idx_feature, idx_row, Ideal.ofBits_def, Ideal.subf_def, Ideal.mulf_def,
    Ideal.maximumf_def, Ideal.hostUnary_sqrt_def, Ideal.ofBits_zero_f32, zero_add]
  rfl

/-- The converted compare at (row, frame) is the validity bit as a number. -/
theorem mask_at (x3 : Spec.Cnt) (b : Fin 32) (t : Fin 4096) :
    val_main_v23 (F := Ideal) x3 (ix2 b t) = (((Spec.valid x3 b t).toNat : ℝ) : EReal) := by
  rw [val_main_v23_apply, val_main_v22_apply, val_main_v20_apply, val_main_v18_apply, val_main_v17_apply,
    val_main_v21_apply, val_main_v19_apply, idx_row']
  rfl

/-- THE REFERENCE'S RESULT: the masked numerator over the number of valid frames. -/
theorem result_eq (x0 x1 : Spec.Pred) (x2 : Spec.Lbl) (x3 : Spec.Cnt) :
    val_main_v27 (F := Ideal) x0 x1 x2 x3 = fun _ => Ideal.div (Spec.numMasked x0 x1 x2 x3) (Spec.denMask x3) := by
  funext i
  rw [val_main_v27_apply, val_main_v25_apply, val_main_v26_apply, val_main_cst_2_apply, val_main_cst_3_apply]
  simp only [Ideal.hostDivf_def, Ideal.ofBits_def, Ideal.ofBits_zero_f32, zero_add]
  unfold Spec.numMasked Spec.denMask
  refine congrArg₂ Ideal.div ?_ ?_
  · refine Finset.sum_congr rfl fun j _ => ?_
    rw [val_main_v24_apply, Ideal.mulf_def]
    have e1 : val_main_v16 (F := Ideal) x0 x1 x2 x3 j = Spec.perFrame x0 x1 x2 x3 (j 0) (j 1) :=
      (congrArg (val_main_v16 (F := Ideal) x0 x1 x2 x3) (eq_ix2 j)).trans (loss_at x0 x1 x2 x3 (j 0) (j 1))
    have e2 : val_main_v23 (F := Ideal) x3 j = (((Spec.valid x3 (j 0) (j 1)).toNat : ℝ) : EReal) :=
      (congrArg (val_main_v23 (F := Ideal) x3) (eq_ix2 j)).trans (mask_at x3 (j 0) (j 1))
    rw [e1, e2]
  · refine Finset.sum_congr rfl fun j _ => ?_
    exact (congrArg (val_main_v23 (F := Ideal) x3) (eq_ix2 j)).trans (mask_at x3 (j 0) (j 1))

end Cert.RefValue

end
-- ==== Proof.Bridge.lean ====
/-
  The reference's two sums are the kernel's two sums.

  The reference multiplies every frame's loss by its validity bit read as a number and sums over the pair index; the
  kernel selects the loss or zero on the same bit and sums row by row. A bit is 0 or 1, and on the extended reals
  `x * 1 = x` and `x * 0 = 0` hold for every `x` (the infinite ones included), so the two numerators are equal with no
  side condition. The reference's denominator counts the valid frames; a row whose frame count `c` lies in [0, 4096] has
  exactly `c` positions `t < 4096` with `t < c`, so on that domain the count is the sum of the frame counts.
-/
import proofs.«426826_j75694503625206_3_alg».proof.Proof.Spec
import Idealize.ShloMosaic.Lib.StableHlo.Predicate
import Mathlib.Data.Fintype.Fin
import Mathlib.Data.EReal.Basic
import Mathlib.Data.EReal.Inv

noncomputable section

namespace Cert.Spec

open Idealize.ShloMosaic Idealize.ShloMosaic.ValueIdx Idealize.ShloMosaic.StableHlo.Predicate

/-- An extended real times a bit read as a number is the select on that bit against zero. -/
theorem mul_bit (x : EReal) (c : BitVec 1) : x * (((c.toNat : ℝ)) : EReal) = Scalar.select c x 0 := by
  by_cases h : c = 1#1
  · subst h
    rw [select_one]
    show x * (((1 : ℕ) : ℝ) : EReal) = x
    rw [Nat.cast_one, EReal.coe_one, mul_one]
  · have h0 := eq_zero_of_ne_one h
    subst h0
    rw [select_zero]
    show x * (((0 : ℕ) : ℝ) : EReal) = 0
    rw [Nat.cast_zero, EReal.coe_zero, mul_zero]

/-- The masked sum over the pair index is the selected sum row by row. -/
theorem numMasked_eq_num (a0 a1 : Pred) (l : Lbl) (n : Cnt) : numMasked a0 a1 l n = num a0 a1 l n := by
  unfold numMasked num rowLoss
  rw [sum_idx2]
  refine Finset.sum_congr rfl fun b _ => Finset.sum_congr rfl fun t _ => ?_
  exact mul_bit _ _

/-- The coercion of a finite real sum is the sum of the coercions. -/
theorem coe_sum {ι : Type} (s : Finset ι) (g : ι → ℝ) :
    ∑ i ∈ s, ((g i : ℝ) : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- A word whose signed value lies in [0, 4096] has that value as its unsigned one. -/
theorem toNat_of_range {w : BitVec 32} (h0 : 0 ≤ w.toInt) (h1 : w.toInt ≤ 4096) :
    w.toInt = (w.toNat : ℤ) ∧ w.toNat ≤ 4096 := by
  have hlt := w.isLt
  rw [BitVec.toInt_eq_toNat_cond] at h0 h1 ⊢
  split at h0 <;> split <;> omega

/-- The validity bit of position `t` against a count `w` in [0, 4096], as a number: 1 below the count, 0 from it on. -/
theorem bit_toNat {w : BitVec 32} (hw : w.toNat ≤ 4096) (t : Fin 4096) :
    (IntOp.cmpi .slt (BitVec.ofNat 32 t.val) w).toNat = if t.val < w.toNat then 1 else 0 := by
  have ht : (BitVec.ofNat 32 t.val).toNat = t.val := by
    rw [BitVec.toNat_ofNat]; exact Nat.mod_eq_of_lt (by have := t.isLt; omega)
  have hiff := slt_iff_toNat (a := BitVec.ofNat 32 t.val) (b := w) (by rw [ht]; have := t.isLt; omega) (by omega)
  rw [ht] at hiff
  by_cases hlt : t.val < w.toNat
  · rw [if_pos hlt, hiff.2 hlt]; rfl
  · rw [if_neg hlt, eq_zero_of_ne_one (fun h => hlt (hiff.1 h))]; rfl

/-- The positions below a count `k ≤ 4096`, counted over all 4096 positions, number `k`. -/
theorem card_below {k : ℕ} (hk : k ≤ 4096) : ∑ t : Fin 4096, (if t.val < k then 1 else 0 : ℕ) = k := by
  rw [Finset.sum_boole, Fin.card_filter_val_lt]
  exact Nat.min_eq_right hk

/-- The validity bits of a row whose count `w` lies in [0, 4096] sum to `w`, as naturals. -/
theorem count_nat {w : BitVec 32} (hle : w.toNat ≤ 4096) :
    ∑ t : Fin 4096, (IntOp.cmpi .slt (BitVec.ofNat 32 t.val) w).toNat = w.toNat :=
  (Finset.sum_congr rfl (fun t _ => bit_toNat hle t)).trans (card_below hle)

/-- The same count in the extended reals. -/
theorem count_row {w : BitVec 32} (h0 : 0 ≤ w.toInt) (h1 : w.toInt ≤ 4096) :
    ∑ t : Fin 4096, (((IntOp.cmpi .slt (BitVec.ofNat 32 t.val) w).toNat : ℝ) : EReal) = ((w.toInt : ℝ) : EReal) := by
  obtain ⟨hint, hle⟩ := toNat_of_range h0 h1
  rw [coe_sum, ← Nat.cast_sum, count_nat hle, hint, Int.cast_natCast]

/-- A row whose frame count lies in [0, 4096] has that many valid frames. -/
theorem valid_count (n : Cnt) (b : Fin 32) (h0 : 0 ≤ (n (ix1 b)).toInt) (h1 : (n (ix1 b)).toInt ≤ 4096) :
    ∑ t : Fin 4096, (((valid n b t).toNat : ℝ) : EReal) = cnt n b :=
  count_row (w := n (ix1 b)) h0 h1

/-- On frame counts in [0, 4096] the number of valid frames is the sum of the frame counts. -/
theorem denMask_eq_denCounts (n : Cnt) (h : InRange n) : denMask n = denCounts n := by
  unfold denMask denCounts
  rw [sum_idx2]
  refine Finset.sum_congr rfl fun b _ => ?_
  refine (Finset.sum_congr rfl fun t _ => ?_).trans (valid_count n b (h b).1 (h b).2)
  rfl

end Cert.Spec

end
-- ==== Proof.PreRange.lean ====
/-
  The precondition bounds every row's frame count.

  The precondition is the conjunction of four `jnp.all` tests: the two prediction arrays are finite, every frame count is
  at least 0, and every frame count is at most 4096 (both compared signed). Its value being 1 at the scalar's one index
  makes each conjunct 1; a reduction by `and` over all axes that comes out 1 had a 1 at every element; and the element of
  the last two tests at row `b` is the signed comparison of the row's count with the broadcast constant 0, respectively
  4096. Only these two conjuncts are needed for the bounds.
-/
import proofs.«426826_j75694503625206_3_alg».proof.Pre_finite_inputs
import proofs.«426826_j75694503625206_3_alg».proof.Proof.Spec
import Idealize.ShloMosaic.Lib.ReduceAll
import Idealize.ShloMosaic.Lib.ValueIdx

noncomputable section

namespace Cert.Spec

open Idealize.ShloMosaic Idealize.ShloMosaic.ValueIdx

/-- The scalar shape has one index. -/
instance : Subsingleton Cert.Pre_finite_inputs.S_.Idx := ⟨fun a b => funext fun d => d.elim0⟩

/-- Under the precondition every row's frame count lies in [0, 4096]. -/
theorem inRange_of_pre [Cert.Pre_finite_inputs.Facts]
    (a0 a1 : FVec Ideal Cert.Pre_finite_inputs.S32x128x4096 .f32) (l : IVec Cert.Pre_finite_inputs.S32x4096 32)
    (n : IVec Cert.Pre_finite_inputs.S32 32)
    (h : Cert.Pre_finite_inputs.fn (F := Ideal) a0 a1 l n = fun _ => 1#1) : InRange n := by
  intro b
  have e := congrFun h ix0
  dsimp only [Cert.Pre_finite_inputs.fn, Cert.Pre_finite_inputs.fn_part1] at e
  obtain ⟨h12, h15⟩ := IntOp.andi_eq_one.1 e
  obtain ⟨-, h11⟩ := IntOp.andi_eq_one.1 h12
  have hge := Host.reduce_andi_all _ _ _ _ _ h11 (ix1 b)
  have hle := Host.reduce_andi_all _ _ _ _ _ h15 (ix1 b)
  have h0 : (0#32 : BitVec 32).toInt ≤ (n (ix1 b)).toInt := IntOp.cmpi_sge.1 hge
  have h1 : (n (ix1 b)).toInt ≤ (4096#32 : BitVec 32).toInt := IntOp.cmpi_sle.1 hle
  have z0 : (0#32 : BitVec 32).toInt = 0 := by decide
  have z1 : (4096#32 : BitVec 32).toInt = 4096 := by decide
  rw [z0] at h0
  rw [z1] at h1
  exact ⟨h0, h1⟩

end Cert.Spec

end
-- ==== Proof.lean ====
/-
  The certificate of the per-frame margin loss averaged over ragged frame counts.

  For every batch row `b` and frame `t` both programs take the L2 distance of the two predictions over the 128 features,
  scale it by the row's frame count `n_b`, and square it where the label is nonzero, or square the clamped gap to the
  margin where the label is zero; a frame at a position `t ≥ n_b` does not count. The kernel sums the counted losses row
  by row (four rows per grid point, eight points); the host lines after it sum the 32 row sums and divide by the sum of the
  frame counts. The reference multiplies each loss by the 0/1 validity mask, sums over all (row, frame) pairs, and divides
  by the sum of the mask.

  The numerators agree on every input: a mask bit is 0 or 1, `x · 1 = x` and `x · 0 = 0` hold for every extended real,
  and a finite sum may be taken row by row. The denominators agree exactly where every row has as many positions
  `t < 4096` below its count as the count says, that is where `0 ≤ n_b ≤ 4096`: the precondition's two integer conjuncts
  (a count of 5000 counts only 4096 frames, a negative count none). The finiteness conjuncts are not used.

  The two kernel programs' frames are the generated ones, the reference's frame is its generated run with the result
  dropped, and the idealization rewrote nothing, so the fourth conjunct is `True`.
-/
import proofs.«426826_j75694503625206_3_alg».proof.Defs
import proofs.«426826_j75694503625206_3_alg».proof.Proof.Gen.Kernel
import proofs.«426826_j75694503625206_3_alg».proof.Proof.Gen.Kernel.Frame
import proofs.«426826_j75694503625206_3_alg».proof.Proof.Gen.KernelIdeal
import proofs.«426826_j75694503625206_3_alg».proof.Proof.Gen.KernelIdeal.Frame
import proofs.«426826_j75694503625206_3_alg».proof.Proof.Gen.ReferenceIdeal
import proofs.«426826_j75694503625206_3_alg».proof.Proof.Gen.ReferenceIdeal.Run
import proofs.«426826_j75694503625206_3_alg».proof.Proof.Gen.ReferenceIdeal.Read
import proofs.«426826_j75694503625206_3_alg».proof.Proof.Gen.Pre_finite_inputs
import proofs.«426826_j75694503625206_3_alg».proof.Proof.KernelRun
import proofs.«426826_j75694503625206_3_alg».proof.Proof.RefValue
import proofs.«426826_j75694503625206_3_alg».proof.Proof.Bridge
import proofs.«426826_j75694503625206_3_alg».proof.Proof.PreRange
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every frame count in [0, 4096], the kernel's numerator over the sum of
    the counts is the reference's masked numerator over the number of valid frames. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _ _ _).trans ?_
  rw [(hagree c).1, (hagree c).2.1, (hagree c).2.2.1, (hagree c).2.2.2, Cert.RefValue.result_eq,
    Cert.Spec.numMasked_eq_num, Cert.Spec.denMask_eq_denCounts _ (Cert.Spec.inRange_of_pre _ _ _ _ (hpre c))]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
